-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1000x64 : Shape := ⟨2, ![1000, 64]⟩
abbrev S1000 : Shape := ⟨1, ![1000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1000x64 : S_.BroadcastsInDim S1000x64 (![] : Fin 0 → Fin S1000x64.rank)
  reducesTo_S1000x64_S_d0_1 : S1000x64.ReducesTo [0, 1] S_
  bcast_S_S1000 : S_.BroadcastsInDim S1000 (![] : Fin 0 → Fin S1000.rank)
  reducesTo_S1000_S_d0 : S1000.ReducesTo [0] S_

variable [Facts]

def fn_part2 {F : FTy → Type} [FloatOps F] (main_arg8 : FVec F S1000x64 .f32) (main_arg9 : FVec F S1000 .f32) (main_v33 : IVec S_ 1) : IVec S_ 1 :=
  let main_v34 : FVec F S1000x64 .f32 := Host.absf main_arg8
  let main_cst_12 : FVec F S_ .f32 := constant S_ .f32 0x7F800000#32
  let main_v35 : FVec F S1000x64 .f32 := broadcastInDim S1000x64 ![] bcast_S_S1000x64 main_cst_12
  let main_v36 : IVec S1000x64 1 := cmpf .olt main_v34 main_v35
  let main_c_13 : IVec S_ 1 := constantI S_ 1 1#1
  let main_v37 : IVec S_ 1 := (fun x v => Host.reduce IntOp.andi x v reducesTo_S1000x64_S_d0_1 h_S_) main_v36 main_c_13
  let main_v38 : IVec S_ 1 := andi main_v33 main_v37
  let main_v39 : FVec F S1000 .f32 := Host.absf main_arg9
  let main_cst_14 : FVec F S_ .f32 := constant S_ .f32 0x7F800000#32
  let main_v40 : FVec F S1000 .f32 := broadcastInDim S1000 ![] bcast_S_S1000 main_cst_14
  let main_v41 : IVec S1000 1 := cmpf .olt main_v39 main_v40
  let main_c_15 : IVec S_ 1 := constantI S_ 1 1#1
  let main_v42 : IVec S_ 1 := (fun x v => Host.reduce IntOp.andi x v reducesTo_S1000_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S1000x64 .f32) (main_arg9 : FVec F S1000 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S1000x64 .f32) (main_arg9 : FVec F S1000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1000x64 : Shape := ⟨2, ![1000, 64]⟩
abbrev S1000 : Shape := ⟨1, ![1000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S4000x64 : Shape := ⟨2, ![4000, 64]⟩
abbrev S1x64 : Shape := ⟨2, ![1, 64]⟩
abbrev S64x1000 : Shape := ⟨2, ![64, 1000]⟩
abbrev S100000x1000 : Shape := ⟨2, ![100000, 1000]⟩
abbrev S2000x64 : Shape := ⟨2, ![2000, 64]⟩
abbrev S2000x1000 : Shape := ⟨2, ![2000, 1000]⟩
abbrev S1x1000 : Shape := ⟨2, ![1, 1000]⟩

abbrev nBuf : Space → Nat
  | .hbm => 70
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1000x64, .f32⟩
  | .hbm, ⟨9, _⟩ => ⟨S1000, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S64x64, .f32⟩
  | .hbm, ⟨39, _⟩ => ⟨S64x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S_, .f32⟩
  | .hbm, ⟨55, _⟩ => ⟨S1600000x1, .f32⟩
  | .hbm, ⟨56, _⟩ => ⟨S_, .f32⟩
  | .hbm, ⟨57, _⟩ => ⟨S100000x1, .f32⟩
  | .hbm, ⟨58, _⟩ => ⟨S1600000x1, .i32⟩
  | .hbm, ⟨59, _⟩ => ⟨S100000x1, .f32⟩
  | .hbm, ⟨60, _⟩ => ⟨S_, .f32⟩
  | .hbm, ⟨61, _⟩ => ⟨S100000x1, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S64x64, .f32⟩
  | .hbm, ⟨66, _⟩ => ⟨S64x64, .f32⟩
  | .hbm, ⟨67, _⟩ => ⟨S100000x64, .f32⟩
  | .hbm, ⟨68, _⟩ => ⟨S64x1000, .f32⟩
  | .hbm, ⟨69, _⟩ => ⟨S100000x1000, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S4000x64, .f32⟩
  | .local _ .vmem, ⟨17, _⟩ => ⟨S4000x64, .f32⟩
  | .local _ .vmem, ⟨18, _⟩ => ⟨S2000x64, .f32⟩
  | .local _ .vmem, ⟨19, _⟩ => ⟨S2000x64, .f32⟩
  | .local _ .vmem, ⟨20, _⟩ => ⟨S64x1000, .f32⟩
  | .local _ .vmem, ⟨21, _⟩ => ⟨S1000, .f32⟩
  | .local _ .vmem, ⟨22, _⟩ => ⟨S2000x1000, .f32⟩
  | .local _ .vmem, ⟨23, _⟩ => ⟨S2000x1000, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  transposes_S1000x64_S64x1000_1_0 : S1000x64.Transposes [1, 0] S64x1000
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x1000_S64x1000_0_0 : ∀ a, (![0, 0] : Fin 2 → Nat) a + S64x1000.size a ≤ S64x1000.size a
  h_S64x1000 : 0 < S64x1000.numel
  shapeCasts_S64x1000_S64x1000 : S64x1000.ShapeCasts S64x1000
  inb_S1000_S1000_0 : ∀ a, (![0] : Fin 1 → Nat) a + S1000.size a ≤ S1000.size a
  h_S1000 : 0 < S1000.numel
  shapeCasts_S1000_S1x1000 : S1000.ShapeCasts S1x1000
  broadcasts_S1x1000_S2000x1000 : S1x1000.Broadcasts S2000x1000
  inb_S2000x1000_S2000x1000_0_0 : ∀ a, (![0, 0] : Fin 2 → Nat) a + S2000x1000.size a ≤ S2000x1000.size a
  h_S2000x1000 : 0 < S2000x1000.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S4000x64_S64x64_S4000x64_1_0_0_1_n_n_wf : DotDims.WF S4000x64 S64x64 S4000x64 [1] [0] [0] [1] [] []
  dot_S2000x64_S64x1000_S2000x1000_1_0_0_1_n_n_wf : DotDims.WF S2000x64 S64x1000 S2000x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1000.size a ≤ S64x1000.size a
  hwx2_1 : ∀ i : grid2.Coords, EltTy.bits .f32 = 32 ∨ (Rect.block (s := S64x1000) S64x1000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1000.size a ≤ S1000.size a
  hwx2_2 : ∀ i : grid2.Coords, EltTy.bits .f32 = 32 ∨ (Rect.block (s := S1000) S1000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1000.size a ≤ S100000x1000.size a
  hwx2_3 : ∀ i : grid2.Coords, EltTy.bits .f32 = 32 ∨ (Rect.block (s := S100000x1000) S2000x1000.size (cc2_transform_3 i) (hinb2_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S2000x64_S64x1000_S2000x1000_1_0_0_1_n_n : DotDims S2000x64 S64x1000 S2000x1000 where
  lhsContracting := [1]
  rhsContracting := [0]
  lhsNonContracting := [0]
  rhsNonContracting := [1]
  lhsBatch := []
  rhsBatch := []
  wf := dot_S2000x64_S64x1000_S2000x1000_1_0_0_1_n_n_wf

abbrev win0_0 : Pipeline.Window sig grid0 :=
  Pipeline.Window.ofSpec (Memref.whole main_v21) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S64x1000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S1000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S2000x1000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1000x64 : Shape := ⟨2, ![1000, 64]⟩
abbrev S1000 : Shape := ⟨1, ![1000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x1000 : Shape := ⟨2, ![64, 1000]⟩
abbrev S100000x1000 : Shape := ⟨2, ![100000, 1000]⟩
abbrev S1x1000 : Shape := ⟨2, ![1, 1000]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1000x64, .f32⟩
  | .hbm, ⟨9, _⟩ => ⟨S1000, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S64x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S64x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S_, .f32⟩
  | .hbm, ⟨63, _⟩ => ⟨S1600000x1, .f32⟩
  | .hbm, ⟨64, _⟩ => ⟨S_, .f32⟩
  | .hbm, ⟨65, _⟩ => ⟨S100000x1, .f32⟩
  | .hbm, ⟨66, _⟩ => ⟨S1600000x1, .i32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S64x1000, .f32⟩
  | .hbm, ⟨85, _⟩ => ⟨S100000x1000, .f32⟩
  | .hbm, ⟨86, _⟩ => ⟨S1x1000, .f32⟩
  | .hbm, ⟨87, _⟩ => ⟨S100000x1000, .f32⟩
  | .hbm, ⟨88, _⟩ => ⟨S100000x1000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1000x64_S64x1000_1_0 : S1000x64.Transposes [1, 0] S64x1000
  bcast_S1000_S1x1000_1 : S1000.BroadcastsInDim S1x1000 (![1] : Fin 1 → Fin S1x1000.rank)
  bcast_S1x1000_S100000x1000_0_1 : S1x1000.BroadcastsInDim S100000x1000 (![0, 1] : Fin 2 → Fin S100000x1000.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []
  dot_S100000x64_S64x1000_S100000x1000_1_0_0_1_n_n_wf : DotDims.WF S100000x64 S64x1000 S100000x1000 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1000_S100000x1000_1_0_0_1_n_n : DotDims S100000x64 S64x1000 S100000x1000 where
  lhsContracting := [1]
  rhsContracting := [0]
  lhsNonContracting := [0]
  rhsNonContracting := [1]
  lhsBatch := []
  rhsBatch := []
  wf := dot_S100000x64_S64x1000_S100000x1000_1_0_0_1_n_n_wf

class Facts : Prop extends Facts₀ where

variable [Facts]
-- ==== Proof.HostFn.lean ====
/-
  The host stretches of the kernel's @main, read as functions.

  Before each SAGE kernel the host computes the mean aggregation of a feature array over the edge list: gather the
  source rows (a negative index wrapped by the node count first), scatter-add them at the destination nodes, count the
  edges arriving at each node the same way, and divide by the count raised to at least one. It also transposes the
  weight matrices. `aggOf` is that aggregation as ONE function of the features and the two index rows; it is never
  opened: both programs apply the same function, so only its arguments are compared.
-/
import proofs.«141017_j90829968376535_1_alg».proof.Proof.Gen.KernelIdeal.Frame

set_option maxRecDepth 16384

noncomputable section

open Idealize.ShloMosaic Idealize.ShloMosaic.TcCoe Idealize.SL.Sem Idealize.ShloMosaic.StableHlo

namespace Cert.KernelIdeal.HostFn

open Cert.KernelIdeal Cert.KernelIdeal.Facts₀

variable {F : FTy → Type} [FloatOps F]

/-- Row 0 of the edge list: every edge's source node. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: every edge's destination node. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The mean over incoming edges of the source nodes' feature rows (zero where no edge arrives). -/
def aggOf (h : (⟨S100000x64, .f32⟩ : BufTy).Contents (Elt F)) (src dst : (⟨S1600000, .i32⟩ : BufTy).Contents (Elt F)) :
    (⟨S100000x64, .f32⟩ : BufTy).Contents (Elt F) :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x64 ![0, 1] bcast_S100000x1_S100000x64_0_1
      (maximumf
        (Host.scatterAdd scatter_S100000x1_S1600000x1_S1600000x1_1_0_0_1
          (broadcastInDim S100000x1 ![] bcast_S_S100000x1 (constant S_ .f32 0x00000000#32))
          (broadcastInDim S1600000x1 ![0] bcast_S1600000_S1600000x1_0 dst)
          (broadcastInDim S1600000x1 ![] bcast_S_S1600000x1 (constant S_ .f32 0x3F800000#32)))
        (broadcastInDim S100000x1 ![] bcast_S_S100000x1 (constant S_ .f32 0x3F800000#32))))

/-- A 64×64 weight matrix transposed. -/
def tr64 (w : (⟨S64x64, .f32⟩ : BufTy).Contents (Elt F)) : (⟨S64x64, .f32⟩ : BufTy).Contents (Elt F) :=
  transpose S64x64 [1, 0] w transposes_S64x64_S64x64_1_0

/-- The 1000×64 head matrix transposed. -/
def trHead (w : (⟨S1000x64, .f32⟩ : BufTy).Contents (Elt F)) : (⟨S64x1000, .f32⟩ : BufTy).Contents (Elt F) :=
  transpose S64x1000 [1, 0] w transposes_S1000x64_S64x1000_1_0

open Cert.KernelIdeal.Gen (W0 W1 W2 W3 W4 W5 W6 hostOps0 hostOps1 hostOps2)

variable (m : (ℓ : Loc nD τ sig) → Buf (Elt F) ℓ) (ρ : Dev nD → PrngReg)

/-! ## After the first stretch -/

theorem W1_v1 (c : Dev nD) : W1 m ρ c (Proc.devRef .tc main_v1) = srcOf (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstOf (m ((c : Thread nD τ).loc main_arg1)) := by
  show StableHlo.after hostOps0 (W0 m ρ c) (Proc.devRef .tc main_v3) = _
  after_results
  rfl

theorem W1_v21 (c : Dev nD) : W1 m ρ c (Proc.devRef .tc main_v21)
    = aggOf (m ((c : Thread nD τ).loc main_arg0)) (srcOf (m ((c : Thread nD τ).loc main_arg1))) (dstOf (m ((c : Thread nD τ).loc main_arg1))) := by
  show StableHlo.after hostOps0 (W0 m ρ c) (Proc.devRef .tc main_v21) = _
  after_results_simp
  rfl

theorem W1_v22 (c : Dev nD) : W1 m ρ c (Proc.devRef .tc main_v22) = tr64 (m ((c : Thread nD τ).loc main_arg2)) := by
  show StableHlo.after hostOps0 (W0 m ρ c) (Proc.devRef .tc main_v22) = _
  after_results
  rfl

theorem W1_v23 (c : Dev nD) : W1 m ρ c (Proc.devRef .tc main_v23) = tr64 (m ((c : Thread nD τ).loc main_arg4)) := by
  show StableHlo.after hostOps0 (W0 m ρ c) (Proc.devRef .tc main_v23) = _
  after_results
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_arg (c : Dev nD) :
    W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7)
    ∧ W1 m ρ c (Proc.devRef .tc main_arg8) = m ((c : Thread nD τ).loc main_arg8)
    ∧ W1 m ρ c (Proc.devRef .tc main_arg9) = m ((c : Thread nD τ).loc main_arg9) := by
  refine ⟨?_, ?_, ?_, ?_, ?_⟩
  · show StableHlo.after hostOps0 (W0 m ρ c) (Proc.devRef .tc main_arg5) = _
    after_results
  · show StableHlo.after hostOps0 (W0 m ρ c) (Proc.devRef .tc main_arg6) = _
    after_results
  · show StableHlo.after hostOps0 (W0 m ρ c) (Proc.devRef .tc main_arg7) = _
    after_results
  · show StableHlo.after hostOps0 (W0 m ρ c) (Proc.devRef .tc main_arg8) = _
    after_results
  · show StableHlo.after hostOps0 (W0 m ρ c) (Proc.devRef .tc main_arg9) = _
    after_results

/-! ## Across the first kernel: it writes its result array only -/

theorem W2_v1 (c : Dev nD) : W2 m ρ c (Proc.devRef .tc main_v1) = srcOf (m ((c : Thread nD τ).loc main_arg1)) :=
  (Gen.W2_of_ne m ρ c main_v1 (by decide)).trans (W1_v1 m ρ c)

theorem W2_v3 (c : Dev nD) : W2 m ρ c (Proc.devRef .tc main_v3) = dstOf (m ((c : Thread nD τ).loc main_arg1)) :=
  (Gen.W2_of_ne m ρ c main_v3 (by decide)).trans (W1_v3 m ρ c)

theorem W2_arg (c : Dev nD) :
    W2 m ρ c (Proc.devRef .tc main_arg5) = m ((c : Thread nD τ).loc main_arg5)
    ∧ W2 m ρ c (Proc.devRef .tc main_arg6) = m ((c : Thread nD τ).loc main_arg6)
    ∧ W2 m ρ c (Proc.devRef .tc main_arg7) = m ((c : Thread nD τ).loc main_arg7)
    ∧ W2 m ρ c (Proc.devRef .tc main_arg8) = m ((c : Thread nD τ).loc main_arg8)
    ∧ W2 m ρ c (Proc.devRef .tc main_arg9) = m ((c : Thread nD τ).loc main_arg9) :=
  ⟨(Gen.W2_of_ne m ρ c main_arg5 (by decide)).trans (W1_arg m ρ c).1,
   (Gen.W2_of_ne m ρ c main_arg6 (by decide)).trans (W1_arg m ρ c).2.1,
   (Gen.W2_of_ne m ρ c main_arg7 (by decide)).trans (W1_arg m ρ c).2.2.1,
   (Gen.W2_of_ne m ρ c main_arg8 (by decide)).trans (W1_arg m ρ c).2.2.2.1,
   (Gen.W2_of_ne m ρ c main_arg9 (by decide)).trans (W1_arg m ρ c).2.2.2.2⟩

/-! ## After the second stretch -/

theorem W3_v42 (c : Dev nD) : W3 m ρ c (Proc.devRef .tc main_v42)
    = aggOf (W2 m ρ c (Proc.devRef .tc main_v24)) (W2 m ρ c (Proc.devRef .tc main_v1)) (W2 m ρ c (Proc.devRef .tc main_v3)) := by
  show StableHlo.after hostOps1 (W2 m ρ c) (Proc.devRef .tc main_v42) = _
  after_results_simp
  rfl

theorem W3_v43 (c : Dev nD) : W3 m ρ c (Proc.devRef .tc main_v43) = tr64 (W2 m ρ c (Proc.devRef .tc main_arg5)) := by
  show StableHlo.after hostOps1 (W2 m ρ c) (Proc.devRef .tc main_v43) = _
  after_results
  rfl

theorem W3_v44 (c : Dev nD) : W3 m ρ c (Proc.devRef .tc main_v44) = tr64 (W2 m ρ c (Proc.devRef .tc main_arg7)) := by
  show StableHlo.after hostOps1 (W2 m ρ c) (Proc.devRef .tc main_v44) = _
  after_results
  rfl

theorem W3_v24 (c : Dev nD) : W3 m ρ c (Proc.devRef .tc main_v24) = W2 m ρ c (Proc.devRef .tc main_v24) := by
  show StableHlo.after hostOps1 (W2 m ρ c) (Proc.devRef .tc main_v24) = _
  after_results

theorem W3_arg (c : Dev nD) :
    W3 m ρ c (Proc.devRef .tc main_arg6) = W2 m ρ c (Proc.devRef .tc main_arg6)
    ∧ W3 m ρ c (Proc.devRef .tc main_arg8) = W2 m ρ c (Proc.devRef .tc main_arg8)
    ∧ W3 m ρ c (Proc.devRef .tc main_arg9) = W2 m ρ c (Proc.devRef .tc main_arg9) := by
  refine ⟨?_, ?_, ?_⟩
  · show StableHlo.after hostOps1 (W2 m ρ c) (Proc.devRef .tc main_arg6) = _
    after_results
  · show StableHlo.after hostOps1 (W2 m ρ c) (Proc.devRef .tc main_arg8) = _
    after_results
  · show StableHlo.after hostOps1 (W2 m ρ c) (Proc.devRef .tc main_arg9) = _
    after_results

/-! ## Across the second kernel, and the third stretch: one transpose -/

theorem W5_v46 (c : Dev nD) : W5 m ρ c (Proc.devRef .tc main_v46) = trHead (W4 m ρ c (Proc.devRef .tc main_arg8)) := by
  show StableHlo.after hostOps2 (W4 m ρ c) (Proc.devRef .tc main_v46) = _
  after_results
  rfl

theorem W5_v45 (c : Dev nD) : W5 m ρ c (Proc.devRef .tc main_v45) = W4 m ρ c (Proc.devRef .tc main_v45) := by
  show StableHlo.after hostOps2 (W4 m ρ c) (Proc.devRef .tc main_v45) = _
  after_results

theorem W5_arg9 (c : Dev nD) : W5 m ρ c (Proc.devRef .tc main_arg9) = W4 m ρ c (Proc.devRef .tc main_arg9) := by
  show StableHlo.after hostOps2 (W4 m ρ c) (Proc.devRef .tc main_arg9) = _
  after_results

theorem W4_arg (c : Dev nD) :
    W4 m ρ c (Proc.devRef .tc main_arg8) = m ((c : Thread nD τ).loc main_arg8)
    ∧ W4 m ρ c (Proc.devRef .tc main_arg9) = m ((c : Thread nD τ).loc main_arg9) :=
  ⟨(Gen.W4_of_ne m ρ c main_arg8 (by decide)).trans (((W3_arg m ρ c).2.1).trans (W2_arg m ρ c).2.2.2.1),
   (Gen.W4_of_ne m ρ c main_arg9 (by decide)).trans (((W3_arg m ρ c).2.2).trans (W2_arg m ρ c).2.2.2.2)⟩

end Cert.KernelIdeal.HostFn

end
-- ==== Proof.Spec.lean ====
/-
  What the network computes, as whole-array functions at the ideal values.

  One SAGE layer maps the mean-aggregated features A, the node features H, two 64×64 matrices and a bias row to
      max ((A·Wl + H·Wr) + b, 0),
  entry by entry; the head maps H, a 64×1000 matrix and a bias row to  H·W + b.  Both are stated over explicit
  coordinates (a node p, an output channel o) and then as functions of the array index.
-/
import Idealize.ShloMosaic.PureOps.Ideal
import Idealize.ShloMosaic.Lib.ValueIdx

noncomputable section

open scoped BigOperators
open Idealize.ShloMosaic Idealize.ShloMosaic.ValueIdx

namespace Cert.Spec

/-- Entry (p, o) of one SAGE layer: the two products summed first, then the bias, then the maximum with zero. -/
def layerAt (a h : (⟨2, ![100000, 64]⟩ : Shape).Idx → EReal) (wl wr : (⟨2, ![64, 64]⟩ : Shape).Idx → EReal)
    (b : (⟨1, ![64]⟩ : Shape).Idx → EReal) (p : Fin 100000) (o : Fin 64) : EReal :=
  max ((∑ k : Fin 64, a (ix2 p k) * wl (ix2 k o) + ∑ k : Fin 64, h (ix2 p k) * wr (ix2 k o)) + b (ix1 o)) 0

/-- One SAGE layer as a function of the array index. -/
def layer (a h : (⟨2, ![100000, 64]⟩ : Shape).Idx → EReal) (wl wr : (⟨2, ![64, 64]⟩ : Shape).Idx → EReal)
    (b : (⟨1, ![64]⟩ : Shape).Idx → EReal) : (⟨2, ![100000, 64]⟩ : Shape).Idx → EReal :=
  fun i => layerAt a h wl wr b (i 0) (i 1)

theorem layer_apply (a h : (⟨2, ![100000, 64]⟩ : Shape).Idx → EReal) (wl wr : (⟨2, ![64, 64]⟩ : Shape).Idx → EReal)
    (b : (⟨1, ![64]⟩ : Shape).Idx → EReal) (p : Fin 100000) (o : Fin 64) :
    layer a h wl wr b (ix2 p o) = layerAt a h wl wr b p o := rfl

/-- Entry (p, o) of the head. -/
def headAt (h : (⟨2, ![100000, 64]⟩ : Shape).Idx → EReal) (w : (⟨2, ![64, 1000]⟩ : Shape).Idx → EReal)
    (b : (⟨1, ![1000]⟩ : Shape).Idx → EReal) (p : Fin 100000) (o : Fin 1000) : EReal :=
  (∑ k : Fin 64, h (ix2 p k) * w (ix2 k o)) + b (ix1 o)

/-- The head as a function of the array index. -/
def head (h : (⟨2, ![100000, 64]⟩ : Shape).Idx → EReal) (w : (⟨2, ![64, 1000]⟩ : Shape).Idx → EReal)
    (b : (⟨1, ![1000]⟩ : Shape).Idx → EReal) : (⟨2, ![100000, 1000]⟩ : Shape).Idx → EReal :=
  fun i => headAt h w b (i 0) (i 1)

theorem head_apply (h : (⟨2, ![100000, 64]⟩ : Shape).Idx → EReal) (w : (⟨2, ![64, 1000]⟩ : Shape).Idx → EReal)
    (b : (⟨1, ![1000]⟩ : Shape).Idx → EReal) (p : Fin 100000) (o : Fin 1000) :
    head h w b (ix2 p o) = headAt h w b p o := rfl

end Cert.Spec

end
-- ==== Proof.Net.lean ====
/-
  The whole network as one function of the ten arguments, at the ideal values:

      hidden = layer (agg x) x W1lᵀ W1rᵀ b1
      net    = head (layer (agg hidden) hidden W2lᵀ W2rᵀ b2) Wfcᵀ bfc

  with `agg` the mean aggregation over the edge list's two rows. Both programs are shown to end at this term.
-/
import proofs.«141017_j90829968376535_1_alg».proof.Proof.HostFn
import proofs.«141017_j90829968376535_1_alg».proof.Proof.Spec

noncomputable section

open Idealize.ShloMosaic

namespace Cert.KernelIdeal.Net

open Cert.KernelIdeal Cert.KernelIdeal.HostFn

/-- The first layer's output. -/
def hidden (x : (⟨S100000x64, .f32⟩ : BufTy).Contents (Elt Ideal)) (e : (⟨S2x1600000, .i32⟩ : BufTy).Contents (Elt Ideal))
    (w1l : (⟨S64x64, .f32⟩ : BufTy).Contents (Elt Ideal)) (b1 : (⟨S64, .f32⟩ : BufTy).Contents (Elt Ideal))
    (w1r : (⟨S64x64, .f32⟩ : BufTy).Contents (Elt Ideal)) : (⟨S100000x64, .f32⟩ : BufTy).Contents (Elt Ideal) :=
  Cert.Spec.layer (aggOf x (srcOf e) (dstOf e)) x (tr64 w1l) (tr64 w1r) b1

/-- The second layer's output, from the first's. -/
def hidden2 (h : (⟨S100000x64, .f32⟩ : BufTy).Contents (Elt Ideal)) (e : (⟨S2x1600000, .i32⟩ : BufTy).Contents (Elt Ideal))
    (w2l : (⟨S64x64, .f32⟩ : BufTy).Contents (Elt Ideal)) (b2 : (⟨S64, .f32⟩ : BufTy).Contents (Elt Ideal))
    (w2r : (⟨S64x64, .f32⟩ : BufTy).Contents (Elt Ideal)) : (⟨S100000x64, .f32⟩ : BufTy).Contents (Elt Ideal) :=
  Cert.Spec.layer (aggOf h (srcOf e) (dstOf e)) h (tr64 w2l) (tr64 w2r) b2

/-- The network's result. -/
def net (x : (⟨S100000x64, .f32⟩ : BufTy).Contents (Elt Ideal)) (e : (⟨S2x1600000, .i32⟩ : BufTy).Contents (Elt Ideal))
    (w1l : (⟨S64x64, .f32⟩ : BufTy).Contents (Elt Ideal)) (b1 : (⟨S64, .f32⟩ : BufTy).Contents (Elt Ideal))
    (w1r w2l : (⟨S64x64, .f32⟩ : BufTy).Contents (Elt Ideal)) (b2 : (⟨S64, .f32⟩ : BufTy).Contents (Elt Ideal))
    (w2r : (⟨S64x64, .f32⟩ : BufTy).Contents (Elt Ideal)) (fcw : (⟨S1000x64, .f32⟩ : BufTy).Contents (Elt Ideal))
    (fcb : (⟨S1000, .f32⟩ : BufTy).Contents (Elt Ideal)) : (⟨S100000x1000, .f32⟩ : BufTy).Contents (Elt Ideal) :=
  Cert.Spec.head (hidden2 (hidden x e w1l b1 w1r) e w2l b2 w2r) (trHead fcw) fcb

end Cert.KernelIdeal.Net

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.Payloads.lean ====
/-
  The three kernel bodies' stored values, read at an index, at the ideal values.

  Each SAGE body stores  max ((A·Wl + H·Wr) + b, 0)  of its row block: two plain matrix products into zero (the
  roundings to bf16 on the way in are the identity on extended reals), the bias row broadcast down the rows, and the
  maximum with the zero splat. The head's body stores  H·W + b.  A same-shape cast is the identity, a vector cast to
  one row and broadcast down the rows reads its entry at the column.
-/
import proofs.«141017_j90829968376535_1_alg».proof.Proof.Gen.KernelIdeal.Skeleton
import proofs.«141017_j90829968376535_1_alg».proof.Proof.LibPlainMatmul
import Idealize.ShloMosaic.Lib.ValueLayout
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Pay

open Cert.KernelIdeal Cert.KernelIdeal.Gen Cert.KernelIdeal.Facts₀

/-! ## The two contraction records: the left operand's axis 1 against the right operand's axis 0 -/

theorem sq_l0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem sq_l1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem sq_r0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem sq_r1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

theorem hd_l0 (i : S2000x1000.Idx) (q : dot_S2000x64_S64x1000_S2000x1000_1_0_0_1_n_n.contr.Idx) :
    (dot_S2000x64_S64x1000_S2000x1000_1_0_0_1_n_n.lhsIdx i q 0).val = (i 0).val := by
  unfold DotDims.lhsIdx
  rw [dif_neg (show ¬(0 : Fin S2000x64.rank) ∈ dot_S2000x64_S64x1000_S2000x1000_1_0_0_1_n_n.lhsBatch by decide), dif_pos (show (0 : Fin S2000x64.rank) ∈ dot_S2000x64_S64x1000_S2000x1000_1_0_0_1_n_n.lhsNonContracting by decide)]
  rfl
theorem hd_l1 (i : S2000x1000.Idx) (q : dot_S2000x64_S64x1000_S2000x1000_1_0_0_1_n_n.contr.Idx) :
    (dot_S2000x64_S64x1000_S2000x1000_1_0_0_1_n_n.lhsIdx i q 1).val = (q ⟨0, by decide⟩).val :=
  dot_S2000x64_S64x1000_S2000x1000_1_0_0_1_n_n.lhsIdx_val_of_single rfl i q
theorem hd_r0 (i : S2000x1000.Idx) (q : dot_S2000x64_S64x1000_S2000x1000_1_0_0_1_n_n.contr.Idx) :
    (dot_S2000x64_S64x1000_S2000x1000_1_0_0_1_n_n.rhsIdx i q 0).val = (q ⟨0, by decide⟩).val :=
  dot_S2000x64_S64x1000_S2000x1000_1_0_0_1_n_n.rhsIdx_val_of_single rfl i q
theorem hd_r1 (i : S2000x1000.Idx) (q : dot_S2000x64_S64x1000_S2000x1000_1_0_0_1_n_n.contr.Idx) :
    (dot_S2000x64_S64x1000_S2000x1000_1_0_0_1_n_n.rhsIdx i q 1).val = (i 1).val := by
  unfold DotDims.rhsIdx
  rw [dif_neg (show ¬(1 : Fin S64x1000.rank) ∈ dot_S2000x64_S64x1000_S2000x1000_1_0_0_1_n_n.rhsBatch by decide), dif_pos (show (1 : Fin S64x1000.rank) ∈ dot_S2000x64_S64x1000_S2000x1000_1_0_0_1_n_n.rhsNonContracting by decide)]
  rfl

/-- A 4000-row block times a 64×64 matrix, into zero, at (p, o): the sum over the 64 shared coordinates. -/
theorem sq_matmul_apply (A : FVec Ideal S4000x64 .bf16) (B : FVec Ideal S64x64 .bf16) (p : Fin 4000) (o : Fin 64) :
    matmul dot_S4000x64_S64x64_S4000x64_1_0_0_1_n_n none A B (constant (F := Ideal) S4000x64 .f32 0x00000000#32) (ix2 p o)
      = ∑ k : Fin 64, A (ix2 p k) * B (ix2 k o) :=
  Cert.LibPlainMatmul.matmul_zero_apply dot_S4000x64_S64x64_S4000x64_1_0_0_1_n_n none rfl rfl sq_l0 sq_l1 sq_r0 sq_r1 A B p o

/-- A 2000-row block times the 64×1000 head matrix, into zero, at (p, o). -/
theorem hd_matmul_apply (A : FVec Ideal S2000x64 .bf16) (B : FVec Ideal S64x1000 .bf16) (p : Fin 2000) (o : Fin 1000) :
    matmul dot_S2000x64_S64x1000_S2000x1000_1_0_0_1_n_n none A B (constant (F := Ideal) S2000x1000 .f32 0x00000000#32) (ix2 p o)
      = ∑ k : Fin 64, A (ix2 p k) * B (ix2 k o) :=
  Cert.LibPlainMatmul.matmul_zero_apply dot_S2000x64_S64x1000_S2000x1000_1_0_0_1_n_n none rfl rfl hd_l0 hd_l1 hd_r0 hd_r1 A B p o

/-! ## The payloads -/

/-- The first SAGE body's stored value at (p, o). -/
theorem k0_apply (a h : Vec Ideal S4000x64 .f32) (wl wr : Vec Ideal S64x64 .f32) (b : Vec Ideal S64 .f32) (p : Fin 4000) (o : Fin 64) :
    k0_pay1 (F := Ideal) a h wl wr b (ix2 p o)
      = max ((∑ k : Fin 64, a (ix2 p k) * wl (ix2 k o) + ∑ k : Fin 64, h (ix2 p k) * wr (ix2 k o)) + b (ix1 o)) 0 := by
  unfold k0_pay1
  rw [shapeCast_self, shapeCast_self, shapeCast_self]
  refine congrArg₂ max (congrArg₂ (· + ·) (congrArg₂ (· + ·) ?_ ?_) ?_) ?_
  · exact sq_matmul_apply _ _ p o
  · exact sq_matmul_apply _ _ p o
  · exact (broadcastTo_1b_ab_apply _ _ p o).trans (shapeCast_a_1a_apply b _ 0 o)
  · exact Ideal.ofBits_zero_f32

/-- The second SAGE body's stored value at (p, o): the same function. -/
theorem k1_apply (a h : Vec Ideal S4000x64 .f32) (wl wr : Vec Ideal S64x64 .f32) (b : Vec Ideal S64 .f32) (p : Fin 4000) (o : Fin 64) :
    k1_pay1 (F := Ideal) a h wl wr b (ix2 p o)
      = max ((∑ k : Fin 64, a (ix2 p k) * wl (ix2 k o) + ∑ k : Fin 64, h (ix2 p k) * wr (ix2 k o)) + b (ix1 o)) 0 := by
  unfold k1_pay1
  rw [shapeCast_self, shapeCast_self, shapeCast_self, shapeCast_self]
  refine congrArg₂ max (congrArg₂ (· + ·) (congrArg₂ (· + ·) ?_ ?_) ?_) ?_
  · exact sq_matmul_apply _ _ p o
  · exact sq_matmul_apply _ _ p o
  · exact (broadcastTo_1b_ab_apply _ _ p o).trans (shapeCast_a_1a_apply b _ 0 o)
  · exact Ideal.ofBits_zero_f32

/-- The head's stored value at (p, o). -/
theorem k2_apply (h : Vec Ideal S2000x64 .f32) (w : Vec Ideal S64x1000 .f32) (b : Vec Ideal S1000 .f32) (p : Fin 2000) (o : Fin 1000) :
    k2_pay1 (F := Ideal) h w b (ix2 p o) = (∑ k : Fin 64, h (ix2 p k) * w (ix2 k o)) + b (ix1 o) := by
  unfold k2_pay1
  rw [shapeCast_self, shapeCast_self]
  refine congrArg₂ (· + ·) ?_ ?_
  · exact hd_matmul_apply _ _ p o
  · exact (broadcastTo_1b_ab_apply _ _ p o).trans (shapeCast_a_1a_apply b _ 0 o)

end Cert.KernelIdeal.Pay

end
-- ==== Proof.Region0.lean ====
/-
  The first SAGE kernel as a function of whole arrays.

  The grid has 25 points; point t stages rows 4000 t … 4000 t + 3999 of the aggregated features and of the node
  features, the two weight matrices and the bias whole, and writes back rows 4000 t … 4000 t + 3999 of the result.
  So what point t writes back is block t of ONE function of the arrays as the region finds them,
  `Spec.layer`, and the 25 blocks tile the result array: the array ends holding that function.
-/
import proofs.«141017_j90829968376535_1_alg».proof.Proof.Gen.KernelIdeal.Frame
import proofs.«141017_j90829968376535_1_alg».proof.Proof.Payloads
import proofs.«141017_j90829968376535_1_alg».proof.Proof.Spec
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-block windows sit at block (t, 0), the resident ones at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt25 (t : Fin cfg0.N) : t.val < 25 := Nat.lt_of_lt_of_eq t.isLt N_0

/-- Row p of block t is row 4000 t + p of the array. -/
def row (t : Fin cfg0.N) (p : Fin 4000) : Fin 100000 := ⟨t.val * 4000 + p.val, by
  have h := lt25 t
  have := p.isLt
  omega⟩

/-- The aggregated features' block at point t, read at (p, k). -/
theorem read0 (c : Dev nD) (t : Fin cfg0.N) (p : Fin 4000) (k : Fin 64) :
    (iblk0 V c 0 t : Vec Ideal S4000x64 .f32) (ix2 p k) = (V c main_v21 : S100000x64.Idx → Elt Ideal .f32) (ix2 (row t p) k) := by
  obtain ⟨e0, e1, -⟩ := idx_facts t
  unfold iblk0
  rw [View.read_apply]
  show V c main_v21 _ = V c main_v21 _
  refine congrArg (V c main_v21) ?_
  funext a
  apply Fin.ext
  match a with
  | ⟨0, _⟩ => show win0_0.index t (0 : Fin 2) * 4000 + 1 * p.val = t.val * 4000 + p.val; rw [e0]; omega
  | ⟨1, _⟩ => show win0_0.index t (1 : Fin 2) * 64 + 1 * k.val = k.val; rw [e1]; omega

/-- The node features' block at point t, read at (p, k). -/
theorem read1 (c : Dev nD) (t : Fin cfg0.N) (p : Fin 4000) (k : Fin 64) :
    (iblk0 V c 1 t : Vec Ideal S4000x64 .f32) (ix2 p k) = (V c main_arg0 : S100000x64.Idx → Elt Ideal .f32) (ix2 (row t p) k) := by
  obtain ⟨-, -, e0, e1, -⟩ := idx_facts t
  unfold iblk0
  rw [View.read_apply]
  show V c main_arg0 _ = V c main_arg0 _
  refine congrArg (V c main_arg0) ?_
  funext a
  apply Fin.ext
  match a with
  | ⟨0, _⟩ => show win0_1.index t (0 : Fin 2) * 4000 + 1 * p.val = t.val * 4000 + p.val; rw [e0]; omega
  | ⟨1, _⟩ => show win0_1.index t (1 : Fin 2) * 64 + 1 * k.val = k.val; rw [e1]; omega

/-- The left weight matrix is staged whole. -/
theorem read2 (c : Dev nD) (t : Fin cfg0.N) (k : Fin 64) (o : Fin 64) :
    (iblk0 V c 2 t : Vec Ideal S64x64 .f32) (ix2 k o) = (V c main_v22 : S64x64.Idx → Elt Ideal .f32) (ix2 k o) := by
  obtain ⟨-, -, -, -, e0, e1, -⟩ := idx_facts t
  unfold iblk0
  rw [View.read_apply]
  show V c main_v22 _ = V c main_v22 _
  refine congrArg (V c main_v22) ?_
  funext a
  apply Fin.ext
  match a with
  | ⟨0, _⟩ => show win0_2.index t (0 : Fin 2) * 64 + 1 * k.val = k.val; rw [e0]; omega
  | ⟨1, _⟩ => show win0_2.index t (1 : Fin 2) * 64 + 1 * o.val = o.val; rw [e1]; omega

/-- The bias row is staged whole. -/
theorem read3 (c : Dev nD) (t : Fin cfg0.N) (o : Fin 64) :
    (iblk0 V c 3 t : Vec Ideal S64 .f32) (ix1 o) = (V c main_arg3 : S64.Idx → Elt Ideal .f32) (ix1 o) := by
  obtain ⟨-, -, -, -, -, -, e0, -⟩ := idx_facts t
  unfold iblk0
  rw [View.read_apply]
  show V c main_arg3 _ = V c main_arg3 _
  refine congrArg (V c main_arg3) ?_
  funext a
  apply Fin.ext
  match a with
  | ⟨0, _⟩ => show win0_3.index t (0 : Fin 1) * 64 + 1 * o.val = o.val; rw [e0]; omega

/-- The right weight matrix is staged whole. -/
theorem read4 (c : Dev nD) (t : Fin cfg0.N) (k : Fin 64) (o : Fin 64) :
    (iblk0 V c 4 t : Vec Ideal S64x64 .f32) (ix2 k o) = (V c main_v23 : S64x64.Idx → Elt Ideal .f32) (ix2 k o) := by
  obtain ⟨-, -, -, -, -, -, -, e0, e1, -⟩ := idx_facts t
  unfold iblk0
  rw [View.read_apply]
  show V c main_v23 _ = V c main_v23 _
  refine congrArg (V c main_v23) ?_
  funext a
  apply Fin.ext
  match a with
  | ⟨0, _⟩ => show win0_4.index t (0 : Fin 2) * 64 + 1 * k.val = k.val; rw [e0]; omega
  | ⟨1, _⟩ => show win0_4.index t (1 : Fin 2) * 64 + 1 * o.val = o.val; rw [e1]; omega

/-- Entry (p, o) of the result's block t is entry (4000 t + p, o) of the array. -/
theorem emb5 (t : Fin cfg0.N) (p : Fin 4000) (o : Fin 64) :
    ((cfg0.win 5).blk t).view.emb (ix2 p o) = (ix2 (row t p) o : S100000x64.Idx) := by
  obtain ⟨-, -, -, -, -, -, -, -, -, e0, e1⟩ := idx_facts t
  funext a
  apply Fin.ext
  match a with
  | ⟨0, _⟩ => show win0_5.index t (0 : Fin 2) * 4000 + 1 * p.val = t.val * 4000 + p.val; rw [e0]; omega
  | ⟨1, _⟩ => show win0_5.index t (1 : Fin 2) * 64 + 1 * o.val = o.val; rw [e1]; omega

/-- The layer of the arrays as the region finds them. -/
abbrev G (c : Dev nD) : S100000x64.Idx → Elt Ideal .f32 :=
  Cert.Spec.layer (V c main_v21) (V c main_arg0) (V c main_v22) (V c main_v23) (V c main_arg3)

/-- What point t writes back is block t of the layer. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S4000x64) hz2, View.ld_unit_zero (S := S64x64) hz2, View.ld_unit_zero (S := S64) hz1]
  funext j
  obtain ⟨p, o, rfl⟩ : ∃ (p : Fin 4000) (o : Fin 64), j = ix2 p o := ⟨j 0, j 1, eq_ix2 j⟩
  rw [View.read_apply, emb5 t p o]
  show k0_pay1 (F := Ideal) (iblk0 V c 0 t) (iblk0 V c 1 t) (iblk0 V c 2 t) (iblk0 V c 4 t) (iblk0 V c 3 t) (ix2 p o) = Cert.Spec.layerAt _ _ _ _ _ (row t p) o
  refine (Pay.k0_apply (iblk0 V c 0 t) (iblk0 V c 1 t) (iblk0 V c 2 t) (iblk0 V c 4 t) (iblk0 V c 3 t) p o).trans ?_
  unfold Cert.Spec.layerAt
  refine congrArg₂ max (congrArg₂ (· + ·) (congrArg₂ (· + ·) (Finset.sum_congr rfl fun k _ => ?_) (Finset.sum_congr rfl fun k _ => ?_)) ?_) rfl
  · exact congrArg₂ (· * ·) (read0 V c t p k) (read2 V c t k o)
  · exact congrArg₂ (· * ·) (read1 V c t p k) (read4 V c t k o)
  · exact read3 V c t o

/-- The 25 row blocks tile the result array. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  obtain ⟨-, -, -, -, -, -, -, -, -, e0, e1⟩ := idx_facts t
  refine ⟨t, flush0_5 t, ?_⟩
  show i ∈ ((View.whole main_v24).slice (win0_5.rect t)).set
  rw [View.set_slice_whole, Rect.mem_set_unit]
  intro a
  match a with
  | ⟨0, _⟩ => show win0_5.index t (0 : Fin 2) * 4000 ≤ (i 0).val ∧ (i 0).val < win0_5.index t (0 : Fin 2) * 4000 + 4000
              rw [e0]; show (i 0).val / 4000 * 4000 ≤ (i 0).val ∧ (i 0).val < (i 0).val / 4000 * 4000 + 4000; omega
  | ⟨1, _⟩ => show win0_5.index t (1 : Fin 2) * 64 ≤ (i 1).val ∧ (i 1).val < win0_5.index t (1 : Fin 2) * 64 + 64
              rw [e1]; omega

/-- The result array after the region: the layer of the arrays as the region finds them. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.Region1.lean ====
/-
  The second SAGE kernel as a function of whole arrays.

  Again 25 grid points; point t stages rows 4000 t … 4000 t + 3999 of the second aggregation and of the first layer's
  output, the second layer's two weight matrices and bias whole, and writes back the same rows of the result. What
  point t writes back is block t of `Spec.layer` of the arrays as the region finds them, and the blocks tile the array.
-/
import proofs.«141017_j90829968376535_1_alg».proof.Proof.Gen.KernelIdeal.Frame
import proofs.«141017_j90829968376535_1_alg».proof.Proof.Payloads
import proofs.«141017_j90829968376535_1_alg».proof.Proof.Spec
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-block windows sit at block (t, 0), the resident ones at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt25 (t : Fin cfg1.N) : t.val < 25 := Nat.lt_of_lt_of_eq t.isLt N_1

/-- Row p of block t is row 4000 t + p of the array. -/
def row (t : Fin cfg1.N) (p : Fin 4000) : Fin 100000 := ⟨t.val * 4000 + p.val, by
  have h := lt25 t
  have := p.isLt
  omega⟩

/-- The second aggregation's block at point t, read at (p, k). -/
theorem read0 (c : Dev nD) (t : Fin cfg1.N) (p : Fin 4000) (k : Fin 64) :
    (iblk1 V c 0 t : Vec Ideal S4000x64 .f32) (ix2 p k) = (V c main_v42 : S100000x64.Idx → Elt Ideal .f32) (ix2 (row t p) k) := by
  obtain ⟨e0, e1, -⟩ := idx_facts t
  unfold iblk1
  rw [View.read_apply]
  show V c main_v42 _ = V c main_v42 _
  refine congrArg (V c main_v42) ?_
  funext a
  apply Fin.ext
  match a with
  | ⟨0, _⟩ => show win1_0.index t (0 : Fin 2) * 4000 + 1 * p.val = t.val * 4000 + p.val; rw [e0]; omega
  | ⟨1, _⟩ => show win1_0.index t (1 : Fin 2) * 64 + 1 * k.val = k.val; rw [e1]; omega

/-- The first layer's output, block t, read at (p, k). -/
theorem read1 (c : Dev nD) (t : Fin cfg1.N) (p : Fin 4000) (k : Fin 64) :
    (iblk1 V c 1 t : Vec Ideal S4000x64 .f32) (ix2 p k) = (V c main_v24 : S100000x64.Idx → Elt Ideal .f32) (ix2 (row t p) k) := by
  obtain ⟨-, -, e0, e1, -⟩ := idx_facts t
  unfold iblk1
  rw [View.read_apply]
  show V c main_v24 _ = V c main_v24 _
  refine congrArg (V c main_v24) ?_
  funext a
  apply Fin.ext
  match a with
  | ⟨0, _⟩ => show win1_1.index t (0 : Fin 2) * 4000 + 1 * p.val = t.val * 4000 + p.val; rw [e0]; omega
  | ⟨1, _⟩ => show win1_1.index t (1 : Fin 2) * 64 + 1 * k.val = k.val; rw [e1]; omega

/-- The left weight matrix is staged whole. -/
theorem read2 (c : Dev nD) (t : Fin cfg1.N) (k : Fin 64) (o : Fin 64) :
    (iblk1 V c 2 t : Vec Ideal S64x64 .f32) (ix2 k o) = (V c main_v43 : S64x64.Idx → Elt Ideal .f32) (ix2 k o) := by
  obtain ⟨-, -, -, -, e0, e1, -⟩ := idx_facts t
  unfold iblk1
  rw [View.read_apply]
  show V c main_v43 _ = V c main_v43 _
  refine congrArg (V c main_v43) ?_
  funext a
  apply Fin.ext
  match a with
  | ⟨0, _⟩ => show win1_2.index t (0 : Fin 2) * 64 + 1 * k.val = k.val; rw [e0]; omega
  | ⟨1, _⟩ => show win1_2.index t (1 : Fin 2) * 64 + 1 * o.val = o.val; rw [e1]; omega

/-- The bias row is staged whole. -/
theorem read3 (c : Dev nD) (t : Fin cfg1.N) (o : Fin 64) :
    (iblk1 V c 3 t : Vec Ideal S64 .f32) (ix1 o) = (V c main_arg6 : S64.Idx → Elt Ideal .f32) (ix1 o) := by
  obtain ⟨-, -, -, -, -, -, e0, -⟩ := idx_facts t
  unfold iblk1
  rw [View.read_apply]
  show V c main_arg6 _ = V c main_arg6 _
  refine congrArg (V c main_arg6) ?_
  funext a
  apply Fin.ext
  match a with
  | ⟨0, _⟩ => show win1_3.index t (0 : Fin 1) * 64 + 1 * o.val = o.val; rw [e0]; omega

/-- The right weight matrix is staged whole. -/
theorem read4 (c : Dev nD) (t : Fin cfg1.N) (k : Fin 64) (o : Fin 64) :
    (iblk1 V c 4 t : Vec Ideal S64x64 .f32) (ix2 k o) = (V c main_v44 : S64x64.Idx → Elt Ideal .f32) (ix2 k o) := by
  obtain ⟨-, -, -, -, -, -, -, e0, e1, -⟩ := idx_facts t
  unfold iblk1
  rw [View.read_apply]
  show V c main_v44 _ = V c main_v44 _
  refine congrArg (V c main_v44) ?_
  funext a
  apply Fin.ext
  match a with
  | ⟨0, _⟩ => show win1_4.index t (0 : Fin 2) * 64 + 1 * k.val = k.val; rw [e0]; omega
  | ⟨1, _⟩ => show win1_4.index t (1 : Fin 2) * 64 + 1 * o.val = o.val; rw [e1]; omega

/-- Entry (p, o) of the result's block t is entry (4000 t + p, o) of the array. -/
theorem emb5 (t : Fin cfg1.N) (p : Fin 4000) (o : Fin 64) :
    ((cfg1.win 5).blk t).view.emb (ix2 p o) = (ix2 (row t p) o : S100000x64.Idx) := by
  obtain ⟨-, -, -, -, -, -, -, -, -, e0, e1⟩ := idx_facts t
  funext a
  apply Fin.ext
  match a with
  | ⟨0, _⟩ => show win1_5.index t (0 : Fin 2) * 4000 + 1 * p.val = t.val * 4000 + p.val; rw [e0]; omega
  | ⟨1, _⟩ => show win1_5.index t (1 : Fin 2) * 64 + 1 * o.val = o.val; rw [e1]; omega

/-- The layer of the arrays as the region finds them. -/
abbrev G (c : Dev nD) : S100000x64.Idx → Elt Ideal .f32 :=
  Cert.Spec.layer (V c main_v42) (V c main_v24) (V c main_v43) (V c main_v44) (V c main_arg6)

/-- What point t writes back is block t of the layer. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S4000x64) hz2, View.ld_unit_zero (S := S64x64) hz2, View.ld_unit_zero (S := S64) hz1]
  funext j
  obtain ⟨p, o, rfl⟩ : ∃ (p : Fin 4000) (o : Fin 64), j = ix2 p o := ⟨j 0, j 1, eq_ix2 j⟩
  rw [View.read_apply, emb5 t p o]
  show k1_pay1 (F := Ideal) (iblk1 V c 0 t) (iblk1 V c 1 t) (iblk1 V c 2 t) (iblk1 V c 4 t) (iblk1 V c 3 t) (ix2 p o) = Cert.Spec.layerAt _ _ _ _ _ (row t p) o
  refine (Pay.k1_apply (iblk1 V c 0 t) (iblk1 V c 1 t) (iblk1 V c 2 t) (iblk1 V c 4 t) (iblk1 V c 3 t) p o).trans ?_
  unfold Cert.Spec.layerAt
  refine congrArg₂ max (congrArg₂ (· + ·) (congrArg₂ (· + ·) (Finset.sum_congr rfl fun k _ => ?_) (Finset.sum_congr rfl fun k _ => ?_)) ?_) rfl
  · exact congrArg₂ (· * ·) (read0 V c t p k) (read2 V c t k o)
  · exact congrArg₂ (· * ·) (read1 V c t p k) (read4 V c t k o)
  · exact read3 V c t o

/-- The 25 row blocks tile the result array. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  let t : Fin cfg1.N := ⟨(i 0).val / 4000, by rw [hN]; omega⟩
  obtain ⟨-, -, -, -, -, -, -, -, -, e0, e1⟩ := idx_facts t
  refine ⟨t, flush1_5 t, ?_⟩
  show i ∈ ((View.whole main_v45).slice (win1_5.rect t)).set
  rw [View.set_slice_whole, Rect.mem_set_unit]
  intro a
  match a with
  | ⟨0, _⟩ => show win1_5.index t (0 : Fin 2) * 4000 ≤ (i 0).val ∧ (i 0).val < win1_5.index t (0 : Fin 2) * 4000 + 4000
              rw [e0]; show (i 0).val / 4000 * 4000 ≤ (i 0).val ∧ (i 0).val < (i 0).val / 4000 * 4000 + 4000; omega
  | ⟨1, _⟩ => show win1_5.index t (1 : Fin 2) * 64 ≤ (i 1).val ∧ (i 1).val < win1_5.index t (1 : Fin 2) * 64 + 64
              rw [e1]; omega

/-- The result array after the region: the layer of the arrays as the region finds them. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.Region2.lean ====
/-
  The head's kernel as a function of whole arrays.

  50 grid points; point t stages rows 2000 t … 2000 t + 1999 of the second layer's output, the 64×1000 head matrix
  and the bias row whole, and writes back the same rows of the 100000×1000 result. What point t writes back is block t
  of `Spec.head` of the arrays as the region finds them, and the 50 blocks tile the array.
-/
import proofs.«141017_j90829968376535_1_alg».proof.Proof.Gen.KernelIdeal.Frame
import proofs.«141017_j90829968376535_1_alg».proof.Proof.Payloads
import proofs.«141017_j90829968376535_1_alg».proof.Proof.Spec
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-block windows sit at block (t, 0), the resident ones at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

theorem lt50 (t : Fin cfg2.N) : t.val < 50 := Nat.lt_of_lt_of_eq t.isLt N_2

/-- Row p of block t is row 2000 t + p of the array. -/
def row (t : Fin cfg2.N) (p : Fin 2000) : Fin 100000 := ⟨t.val * 2000 + p.val, by
  have h := lt50 t
  have := p.isLt
  omega⟩

/-- The second layer's output, block t, read at (p, k). -/
theorem read0 (c : Dev nD) (t : Fin cfg2.N) (p : Fin 2000) (k : Fin 64) :
    (iblk2 V c 0 t : Vec Ideal S2000x64 .f32) (ix2 p k) = (V c main_v45 : S100000x64.Idx → Elt Ideal .f32) (ix2 (row t p) k) := by
  obtain ⟨e0, e1, -⟩ := idx_facts t
  unfold iblk2
  rw [View.read_apply]
  show V c main_v45 _ = V c main_v45 _
  refine congrArg (V c main_v45) ?_
  funext a
  apply Fin.ext
  match a with
  | ⟨0, _⟩ => show win2_0.index t (0 : Fin 2) * 2000 + 1 * p.val = t.val * 2000 + p.val; rw [e0]; omega
  | ⟨1, _⟩ => show win2_0.index t (1 : Fin 2) * 64 + 1 * k.val = k.val; rw [e1]; omega

/-- The head matrix is staged whole. -/
theorem read1 (c : Dev nD) (t : Fin cfg2.N) (k : Fin 64) (o : Fin 1000) :
    (iblk2 V c 1 t : Vec Ideal S64x1000 .f32) (ix2 k o) = (V c main_v46 : S64x1000.Idx → Elt Ideal .f32) (ix2 k o) := by
  obtain ⟨-, -, e0, e1, -⟩ := idx_facts t
  unfold iblk2
  rw [View.read_apply]
  show V c main_v46 _ = V c main_v46 _
  refine congrArg (V c main_v46) ?_
  funext a
  apply Fin.ext
  match a with
  | ⟨0, _⟩ => show win2_1.index t (0 : Fin 2) * 64 + 1 * k.val = k.val; rw [e0]; omega
  | ⟨1, _⟩ => show win2_1.index t (1 : Fin 2) * 1000 + 1 * o.val = o.val; rw [e1]; omega

/-- The bias row is staged whole. -/
theorem read2 (c : Dev nD) (t : Fin cfg2.N) (o : Fin 1000) :
    (iblk2 V c 2 t : Vec Ideal S1000 .f32) (ix1 o) = (V c main_arg9 : S1000.Idx → Elt Ideal .f32) (ix1 o) := by
  obtain ⟨-, -, -, -, e0, -⟩ := idx_facts t
  unfold iblk2
  rw [View.read_apply]
  show V c main_arg9 _ = V c main_arg9 _
  refine congrArg (V c main_arg9) ?_
  funext a
  apply Fin.ext
  match a with
  | ⟨0, _⟩ => show win2_2.index t (0 : Fin 1) * 1000 + 1 * o.val = o.val; rw [e0]; omega

/-- Entry (p, o) of the result's block t is entry (2000 t + p, o) of the array. -/
theorem emb3 (t : Fin cfg2.N) (p : Fin 2000) (o : Fin 1000) :
    ((cfg2.win 3).blk t).view.emb (ix2 p o) = (ix2 (row t p) o : S100000x1000.Idx) := by
  obtain ⟨-, -, -, -, -, e0, e1⟩ := idx_facts t
  funext a
  apply Fin.ext
  match a with
  | ⟨0, _⟩ => show win2_3.index t (0 : Fin 2) * 2000 + 1 * p.val = t.val * 2000 + p.val; rw [e0]; omega
  | ⟨1, _⟩ => show win2_3.index t (1 : Fin 2) * 1000 + 1 * o.val = o.val; rw [e1]; omega

/-- The head of the arrays as the region finds them. -/
abbrev G (c : Dev nD) : S100000x1000.Idx → Elt Ideal .f32 :=
  Cert.Spec.head (V c main_v45) (V c main_v46) (V c main_arg9)

/-- What point t writes back is block t of the head. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz2]
  simp only [View.ld_unit_zero (S := S2000x64) hz2, View.ld_unit_zero (S := S64x1000) hz2, View.ld_unit_zero (S := S1000) hz1]
  funext j
  obtain ⟨p, o, rfl⟩ : ∃ (p : Fin 2000) (o : Fin 1000), j = ix2 p o := ⟨j 0, j 1, eq_ix2 j⟩
  rw [View.read_apply, emb3 t p o]
  show k2_pay1 (F := Ideal) (iblk2 V c 0 t) (iblk2 V c 1 t) (iblk2 V c 2 t) (ix2 p o) = Cert.Spec.headAt _ _ _ (row t p) o
  refine (Pay.k2_apply (iblk2 V c 0 t) (iblk2 V c 1 t) (iblk2 V c 2 t) p o).trans ?_
  unfold Cert.Spec.headAt
  refine congrArg₂ (· + ·) (Finset.sum_congr rfl fun k _ => ?_) ?_
  · exact congrArg₂ (· * ·) (read0 V c t p k) (read1 V c t k o)
  · exact read2 V c t o

/-- The 50 row blocks tile the result array. -/
theorem cover (i : S100000x1000.Idx) : ∃ t : Fin cfg2.N, (cfg2.win 3).flush t = true ∧ i ∈ ((cfg2.win 3).blk t).view.set := by
  have hi0 : (i 0).val < 100000 := (i 0).isLt
  have hi1 : (i 1).val < 1000 := (i 1).isLt
  have hN : cfg2.N = 50 := N_2
  let t : Fin cfg2.N := ⟨(i 0).val / 2000, by rw [hN]; omega⟩
  obtain ⟨-, -, -, -, -, e0, e1⟩ := idx_facts t
  refine ⟨t, flush2_3 t, ?_⟩
  show i ∈ ((View.whole main_v47).slice (win2_3.rect t)).set
  rw [View.set_slice_whole, Rect.mem_set_unit]
  intro a
  match a with
  | ⟨0, _⟩ => show win2_3.index t (0 : Fin 2) * 2000 ≤ (i 0).val ∧ (i 0).val < win2_3.index t (0 : Fin 2) * 2000 + 2000
              rw [e0]; show (i 0).val / 2000 * 2000 ≤ (i 0).val ∧ (i 0).val < (i 0).val / 2000 * 2000 + 2000; omega
  | ⟨1, _⟩ => show win2_3.index t (1 : Fin 2) * 1000 ≤ (i 1).val ∧ (i 1).val < win2_3.index t (1 : Fin 2) * 1000 + 1000
              rw [e1]; omega

/-- The result array after the region: the head of the arrays as the region finds them. -/
theorem final (c : Dev nD) : (dat2 V c).arrAt 3 cfg2.N = G V c :=
  (dat2 V c).arrAt_eq_of_cover 3 (G V c) (fun t _ => flushed_eq V c t) (cover)

end Cert.KernelIdeal.Region2

end
-- ==== Proof.KernelValue.lean ====
/-
  The kernel's result, read off its run.

  The fold through @main's six segments is walked back from the result buffer: the head's kernel leaves `Spec.head` of
  what it finds, which is the second SAGE kernel's result, one transposed matrix and an argument; that kernel leaves
  `Spec.layer` of the second aggregation (of the first kernel's result), that result, two transposed matrices and an
  argument; and so on to the launch memory. No host operation and no kernel writes an argument or the edge list's rows.
-/
import proofs.«141017_j90829968376535_1_alg».proof.Proof.Net
import proofs.«141017_j90829968376535_1_alg».proof.Proof.Region0
import proofs.«141017_j90829968376535_1_alg».proof.Proof.Region1
import proofs.«141017_j90829968376535_1_alg».proof.Proof.Region2
import proofs.«141017_j90829968376535_1_alg».proof.Proof.KernelRun

set_option maxRecDepth 16384

noncomputable section

open Idealize.ShloMosaic Idealize.ShloMosaic.TcCoe Idealize.SL.Sem

namespace Cert.KernelIdeal.KernelValue

open Cert.KernelIdeal Cert.KernelIdeal.HostFn Cert.KernelIdeal.Net
open Cert.KernelIdeal.Gen (W0 W1 W2 W3 W4 W5 W6 V1 V3 V5)

variable (m : (ℓ : Loc nD τ sig) → Buf (Elt Ideal) ℓ) (ρ : Dev nD → PrngReg)

/-- After the first kernel its result array holds the first layer's output. -/
theorem first_layer (c : Dev nD) : W2 m ρ c (Proc.devRef .tc main_v24)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  refine (Gen.W2_arr m ρ c 5).trans ((Region0.final (V1 m ρ) c).trans ?_)
  show Cert.Spec.layer (W1 m ρ c (Proc.devRef .tc main_v21)) (W1 m ρ c (Proc.devRef .tc main_arg0)) (W1 m ρ c (Proc.devRef .tc main_v22))
    (W1 m ρ c (Proc.devRef .tc main_v23)) (W1 m ρ c (Proc.devRef .tc main_arg3)) = _
  rw [W1_v21, W1_arg0, W1_v22, W1_v23, W1_arg3]
  rfl

/-- After the second kernel its result array holds the second layer's output. -/
theorem second_layer (c : Dev nD) : W4 m ρ c (Proc.devRef .tc main_v45)
    = hidden2 (hidden (m ((c : Thread nD τ).loc main_arg0)) (m ((c : Thread nD τ).loc main_arg1)) (m ((c : Thread nD τ).loc main_arg2))
        (m ((c : Thread nD τ).loc main_arg3)) (m ((c : Thread nD τ).loc main_arg4)))
      (m ((c : Thread nD τ).loc main_arg1)) (m ((c : Thread nD τ).loc main_arg5)) (m ((c : Thread nD τ).loc main_arg6)) (m ((c : Thread nD τ).loc main_arg7)) := by
  refine (Gen.W4_arr m ρ c 5).trans ((Region1.final (V3 m ρ) c).trans ?_)
  show Cert.Spec.layer (W3 m ρ c (Proc.devRef .tc main_v42)) (W3 m ρ c (Proc.devRef .tc main_v24)) (W3 m ρ c (Proc.devRef .tc main_v43))
    (W3 m ρ c (Proc.devRef .tc main_v44)) (W3 m ρ c (Proc.devRef .tc main_arg6)) = _
  rw [W3_v42, W3_v24, W3_v43, W3_v44, (W3_arg m ρ c).1, W2_v1, W2_v3, first_layer, (W2_arg m ρ c).1, (W2_arg m ρ c).2.1, (W2_arg m ρ c).2.2.1]
  rfl

/-- After the head's kernel the result buffer holds the network's result. -/
theorem result_eq (c : Dev nD) : W6 m ρ c (Proc.devRef .tc main_v47)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (Gen.W6_arr m ρ c 3).trans ((Region2.final (V5 m ρ) c).trans ?_)
  show Cert.Spec.head (W5 m ρ c (Proc.devRef .tc main_v45)) (W5 m ρ c (Proc.devRef .tc main_v46)) (W5 m ρ c (Proc.devRef .tc main_arg9)) = _
  rw [W5_v45, W5_v46, W5_arg9, second_layer, (W4_arg m ρ c).1, (W4_arg m ρ c).2]
  rfl

/-- The kernel's run with its result named. -/
theorem run : θ_run defs (onTc (τ := τ) (main (F := Ideal))) ⟨m, fun _ => 0, ρ⟩ (fun r => ∀ c : Dev nD,
      r.2.mem ((c.tc : Thread nD τ).loc main_v47)
        = net (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (Named.run_named m ρ)

end Cert.KernelIdeal.KernelValue

end
-- ==== Proof.RefValue.lean ====
/-
  The reference, read as the same network.

  Stage by stage the reference computes, for each SAGE layer,  max ((A·Wlᵀ + b) + H·Wrᵀ, 0)  with A the mean aggregation of
  H, and then  H·Wfcᵀ + b.  Read at an index, each host `dot_general` is the plain sum over the 64 shared coordinates, a
  bias broadcast twice reads its entry at the column, and the maximum is against the zero splat. The layer differs from
  `Spec.layer` only in where the bias is added:  (s + b) + r = (s + r) + b  in any commutative monoid, the extended
  reals included, so no finiteness is used. The aggregation stages are the kernel program's own host operations.
-/
import proofs.«141017_j90829968376535_1_alg».proof.Proof.Gen.ReferenceIdeal.Read
import proofs.«141017_j90829968376535_1_alg».proof.Proof.Net
import Idealize.ShloMosaic.Lib.ValueIdx
import Idealize.ShloMosaic.PureOps.Ideal.Laws

noncomputable section

open scoped BigOperators
open Idealize.ShloMosaic Idealize.ShloMosaic.ValueIdx Idealize.SL.Sem

namespace Cert.ReferenceIdeal.RefValue

open Cert.ReferenceIdeal Cert.ReferenceIdeal.Read

/-! ## The printed index maps at explicit coordinates -/

theorem l23 (p : Fin 100000) (o k : Fin 64) : lidx_main_v23 (ix2 p o) k = ix2 p k :=
  funext fun a => Fin.ext (by match a with | ⟨0, _⟩ => rfl | ⟨1, _⟩ => rfl)
theorem r23 (p : Fin 100000) (o k : Fin 64) : ridx_main_v23 (ix2 p o) k = ix2 k o :=
  funext fun a => Fin.ext (by match a with | ⟨0, _⟩ => rfl | ⟨1, _⟩ => rfl)
theorem l28 (p : Fin 100000) (o k : Fin 64) : lidx_main_v28 (ix2 p o) k = ix2 p k :=
  funext fun a => Fin.ext (by match a with | ⟨0, _⟩ => rfl | ⟨1, _⟩ => rfl)
theorem r28 (p : Fin 100000) (o k : Fin 64) : ridx_main_v28 (ix2 p o) k = ix2 k o :=
  funext fun a => Fin.ext (by match a with | ⟨0, _⟩ => rfl | ⟨1, _⟩ => rfl)
theorem l50 (p : Fin 100000) (o k : Fin 64) : lidx_main_v50 (ix2 p o) k = ix2 p k :=
  funext fun a => Fin.ext (by match a with | ⟨0, _⟩ => rfl | ⟨1, _⟩ => rfl)
theorem r50 (p : Fin 100000) (o k : Fin 64) : ridx_main_v50 (ix2 p o) k = ix2 k o :=
  funext fun a => Fin.ext (by match a with | ⟨0, _⟩ => rfl | ⟨1, _⟩ => rfl)
theorem l55 (p : Fin 100000) (o k : Fin 64) : lidx_main_v55 (ix2 p o) k = ix2 p k :=
  funext fun a => Fin.ext (by match a with | ⟨0, _⟩ => rfl | ⟨1, _⟩ => rfl)
theorem r55 (p : Fin 100000) (o k : Fin 64) : ridx_main_v55 (ix2 p o) k = ix2 k o :=
  funext fun a => Fin.ext (by match a with | ⟨0, _⟩ => rfl | ⟨1, _⟩ => rfl)
theorem l59 (p : Fin 100000) (o : Fin 1000) (k : Fin 64) : lidx_main_v59 (ix2 p o) k = ix2 p k :=
  funext fun a => Fin.ext (by match a with | ⟨0, _⟩ => rfl | ⟨1, _⟩ => rfl)
theorem r59 (p : Fin 100000) (o : Fin 1000) (k : Fin 64) : ridx_main_v59 (ix2 p o) k = ix2 k o :=
  funext fun a => Fin.ext (by match a with | ⟨0, _⟩ => rfl | ⟨1, _⟩ => rfl)
theorem bias1 (p : Fin 100000) (o : Fin 64) : idx_main_v24 (idx_main_v25 (ix2 p o)) = ix1 o :=
  funext fun a => Fin.ext (by match a with | ⟨0, _⟩ => rfl)
theorem bias2 (p : Fin 100000) (o : Fin 64) : idx_main_v51 (idx_main_v52 (ix2 p o)) = ix1 o :=
  funext fun a => Fin.ext (by match a with | ⟨0, _⟩ => rfl)
theorem bias3 (p : Fin 100000) (o : Fin 1000) : idx_main_v60 (idx_main_v61 (ix2 p o)) = ix1 o :=
  funext fun a => Fin.ext (by match a with | ⟨0, _⟩ => rfl)

/-! ## The three dense stages -/

/-- The first layer's stages are `Spec.layer` of the first aggregation, the features and the two transposed matrices. -/
theorem layer1 (x0 : (⟨S100000x64, .f32⟩ : BufTy).Contents (Elt Ideal)) (x1 : (⟨S2x1600000, .i32⟩ : BufTy).Contents (Elt Ideal)) (x2 : (⟨S64x64, .f32⟩ : BufTy).Contents (Elt Ideal))
    (x3 : (⟨S64, .f32⟩ : BufTy).Contents (Elt Ideal)) (x4 : (⟨S64x64, .f32⟩ : BufTy).Contents (Elt Ideal)) :
    val_main_v30 (F := Ideal) x0 x1 x2 x3 x4
      = Cert.Spec.layer (val_main_v21 (F := Ideal) x0 x1) x0 (val_main_v22 (F := Ideal) x2) (val_main_v27 (F := Ideal) x4) x3 := by
  funext i
  obtain ⟨p, o, rfl⟩ : ∃ (p : Fin 100000) (o : Fin 64), i = ix2 p o := ⟨i 0, i 1, eq_ix2 i⟩
  rw [Cert.Spec.layer_apply, val_main_v30_apply, val_main_v29_apply, val_main_v26_apply, val_main_v23_apply, val_main_v28_apply,
    val_main_v25_apply, val_main_v24_apply, val_main_call0_v0_apply, val_main_call0_cst_apply]
  simp only [l23, r23, l28, r28, bias1, Ideal.addf_def, Ideal.maximumf_def, Ideal.ofBits_def, Ideal.ofBits_zero_f32]
  unfold Cert.Spec.layerAt
  rw [add_right_comm]

/-- The second layer's stages, likewise, of the second aggregation and the first layer's output. -/
theorem layer2 (x0 : (⟨S100000x64, .f32⟩ : BufTy).Contents (Elt Ideal)) (x1 : (⟨S2x1600000, .i32⟩ : BufTy).Contents (Elt Ideal)) (x2 : (⟨S64x64, .f32⟩ : BufTy).Contents (Elt Ideal))
    (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v57 (F := Ideal) x0 x1 x2 x3 x4 x5 x6 x7
      = Cert.Spec.layer (val_main_v48 (F := Ideal) x0 x1 x2 x3 x4) (val_main_v30 (F := Ideal) x0 x1 x2 x3 x4)
          (val_main_v49 (F := Ideal) x5) (val_main_v54 (F := Ideal) x7) x6 := by
  funext i
  obtain ⟨p, o, rfl⟩ : ∃ (p : Fin 100000) (o : Fin 64), i = ix2 p o := ⟨i 0, i 1, eq_ix2 i⟩
  rw [Cert.Spec.layer_apply, val_main_v57_apply, val_main_v56_apply, val_main_v53_apply, val_main_v50_apply, val_main_v55_apply,
    val_main_v52_apply, val_main_v51_apply, val_main_call1_v0_apply, val_main_call1_cst_apply]
  simp only [l50, r50, l55, r55, bias2, Ideal.addf_def, Ideal.maximumf_def, Ideal.ofBits_def, Ideal.ofBits_zero_f32]
  unfold Cert.Spec.layerAt
  rw [add_right_comm]

/-- The last stages are `Spec.head` of the second layer's output, the transposed head matrix and the bias. -/
theorem head3 (x0 : (⟨S100000x64, .f32⟩ : BufTy).Contents (Elt Ideal)) (x1 : (⟨S2x1600000, .i32⟩ : BufTy).Contents (Elt Ideal)) (x2 : (⟨S64x64, .f32⟩ : BufTy).Contents (Elt Ideal))
    (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal))
    (x8 : (⟨S1000x64, .f32⟩ : BufTy).Contents (Elt Ideal)) (x9 : (⟨S1000, .f32⟩ : BufTy).Contents (Elt Ideal)) :
    val_main_v62 (F := Ideal) x0 x1 x2 x3 x4 x5 x6 x7 x8 x9
      = Cert.Spec.head (val_main_v57 (F := Ideal) x0 x1 x2 x3 x4 x5 x6 x7) (val_main_v58 (F := Ideal) x8) x9 := by
  funext i
  obtain ⟨p, o, rfl⟩ : ∃ (p : Fin 100000) (o : Fin 1000), i = ix2 p o := ⟨i 0, i 1, eq_ix2 i⟩
  rw [Cert.Spec.head_apply, val_main_v62_apply, val_main_v59_apply, val_main_v61_apply, val_main_v60_apply]
  simp only [l59, r59, bias3, Ideal.addf_def]
  rfl

/-! ## The aggregation and transposition stages are the kernel program's host functions -/

theorem agg1 (x0 : (⟨S100000x64, .f32⟩ : BufTy).Contents (Elt Ideal)) (x1 : (⟨S2x1600000, .i32⟩ : BufTy).Contents (Elt Ideal)) :
    val_main_v21 (F := Ideal) x0 x1
      = Cert.KernelIdeal.HostFn.aggOf (F := Ideal) x0 (Cert.KernelIdeal.HostFn.srcOf x1) (Cert.KernelIdeal.HostFn.dstOf x1) := rfl

theorem agg2 (x0 : (⟨S100000x64, .f32⟩ : BufTy).Contents (Elt Ideal)) (x1 : (⟨S2x1600000, .i32⟩ : BufTy).Contents (Elt Ideal)) (x2 : (⟨S64x64, .f32⟩ : BufTy).Contents (Elt Ideal))
    (x3 : (⟨S64, .f32⟩ : BufTy).Contents (Elt Ideal)) (x4 : (⟨S64x64, .f32⟩ : BufTy).Contents (Elt Ideal)) :
    val_main_v48 (F := Ideal) x0 x1 x2 x3 x4
      = Cert.KernelIdeal.HostFn.aggOf (F := Ideal) (val_main_v30 (F := Ideal) x0 x1 x2 x3 x4) (Cert.KernelIdeal.HostFn.srcOf x1) (Cert.KernelIdeal.HostFn.dstOf x1) := rfl

theorem tr22 (x : (⟨S64x64, .f32⟩ : BufTy).Contents (Elt Ideal)) : val_main_v22 (F := Ideal) x = Cert.KernelIdeal.HostFn.tr64 (F := Ideal) x := rfl
theorem tr27 (x : (⟨S64x64, .f32⟩ : BufTy).Contents (Elt Ideal)) : val_main_v27 (F := Ideal) x = Cert.KernelIdeal.HostFn.tr64 (F := Ideal) x := rfl
theorem tr49 (x : (⟨S64x64, .f32⟩ : BufTy).Contents (Elt Ideal)) : val_main_v49 (F := Ideal) x = Cert.KernelIdeal.HostFn.tr64 (F := Ideal) x := rfl
theorem tr54 (x : (⟨S64x64, .f32⟩ : BufTy).Contents (Elt Ideal)) : val_main_v54 (F := Ideal) x = Cert.KernelIdeal.HostFn.tr64 (F := Ideal) x := rfl
theorem tr58 (x : (⟨S1000x64, .f32⟩ : BufTy).Contents (Elt Ideal)) : val_main_v58 (F := Ideal) x = Cert.KernelIdeal.HostFn.trHead (F := Ideal) x := rfl

/-! ## The reference's result is the network -/

theorem hidden_eq (x0 : (⟨S100000x64, .f32⟩ : BufTy).Contents (Elt Ideal)) (x1 : (⟨S2x1600000, .i32⟩ : BufTy).Contents (Elt Ideal)) (x2 : (⟨S64x64, .f32⟩ : BufTy).Contents (Elt Ideal))
    (x3 : (⟨S64, .f32⟩ : BufTy).Contents (Elt Ideal)) (x4 : (⟨S64x64, .f32⟩ : BufTy).Contents (Elt Ideal)) :
    val_main_v30 (F := Ideal) x0 x1 x2 x3 x4 = Cert.KernelIdeal.Net.hidden x0 x1 x2 x3 x4 := by
  rw [layer1, agg1, tr22, tr27]
  rfl

theorem hidden2_eq (x0 : (⟨S100000x64, .f32⟩ : BufTy).Contents (Elt Ideal)) (x1 : (⟨S2x1600000, .i32⟩ : BufTy).Contents (Elt Ideal)) (x2 : (⟨S64x64, .f32⟩ : BufTy).Contents (Elt Ideal))
    (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v57 (F := Ideal) x0 x1 x2 x3 x4 x5 x6 x7
      = Cert.KernelIdeal.Net.hidden2 (Cert.KernelIdeal.Net.hidden x0 x1 x2 x3 x4) x1 x5 x6 x7 := by
  rw [layer2, agg2, hidden_eq, tr49, tr54]
  rfl

theorem net_eq (x0 : (⟨S100000x64, .f32⟩ : BufTy).Contents (Elt Ideal)) (x1 : (⟨S2x1600000, .i32⟩ : BufTy).Contents (Elt Ideal)) (x2 : (⟨S64x64, .f32⟩ : BufTy).Contents (Elt Ideal))
    (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal))
    (x8 : (⟨S1000x64, .f32⟩ : BufTy).Contents (Elt Ideal)) (x9 : (⟨S1000, .f32⟩ : BufTy).Contents (Elt Ideal)) :
    val_main_v62 (F := Ideal) x0 x1 x2 x3 x4 x5 x6 x7 x8 x9 = Cert.KernelIdeal.Net.net x0 x1 x2 x3 x4 x5 x6 x7 x8 x9 := by
  rw [head3, hidden2_eq, tr58]
  rfl

/-- The reference run's result term is the network of the launch contents. -/
theorem result_eq (m : (ℓ : Loc nD τ sig) → Buf (Elt Ideal) ℓ) (c : Dev nD) :
    Cert.ReferenceIdeal.Value.res_main_v62 m c
      = Cert.KernelIdeal.Net.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) :=
  (val_main_v62_eq m c).trans (net_eq _ _ _ _ _ _ _ _ _ _)

end Cert.ReferenceIdeal.RefValue

end
-- ==== Proof.lean ====
/-
  A two-layer GraphSAGE network with a linear head, as three Pallas kernels among host aggregation, against its jnp reference:
  equal results over the extended reals.

  Both programs compute, on the host and with the same operations, the mean aggregation of the node features over the edge
  list (gather at the source nodes, scatter-add at the destination nodes, divide by the edge count raised to at least one).
  The kernel program then runs each SAGE layer in a kernel over 25 blocks of 4000 nodes,
      max ((A·Wlᵀ + H·Wrᵀ) + b, 0),
  two matrix products into zero whose bf16 roundings are the identity on extended reals, and the head in a kernel over 50
  blocks of 2000 nodes,  H·Wfcᵀ + b.  The reference computes  max ((A·Wlᵀ + b) + H·Wrᵀ, 0)  and the same head with host
  `dot_general`s. The two differ only in where the bias joins the sum, and  (s + b) + r = (s + r) + b  holds in every
  commutative monoid, so the precondition (finite inputs) is never opened.

  The kernel program's result is read off its run: the fold through @main's segments, each kernel's result array as one
  whole-array function of the arrays it finds (its blocks tile the array). The reference's result is its generated run,
  read stage by stage at an index. Both are the one term `Net.net` of the arguments. The three frames are the generated
  ones; the idealization rewrote nothing, so `preserves` is `True`.
-/
import proofs.«141017_j90829968376535_1_alg».proof.Defs
import proofs.«141017_j90829968376535_1_alg».proof.Proof.Gen.Kernel
import proofs.«141017_j90829968376535_1_alg».proof.Proof.Gen.Kernel.Frame
import proofs.«141017_j90829968376535_1_alg».proof.Proof.Gen.KernelIdeal
import proofs.«141017_j90829968376535_1_alg».proof.Proof.Gen.KernelIdeal.Frame
import proofs.«141017_j90829968376535_1_alg».proof.Proof.Gen.ReferenceIdeal
import proofs.«141017_j90829968376535_1_alg».proof.Proof.Gen.Pre_finite_inputs
import proofs.«141017_j90829968376535_1_alg».proof.Proof.Gen.ReferenceIdeal.Run
import proofs.«141017_j90829968376535_1_alg».proof.Proof.Gen.ReferenceIdeal.Read
import proofs.«141017_j90829968376535_1_alg».proof.Proof.KernelValue
import proofs.«141017_j90829968376535_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the arguments in their result buffer; the memories agree on the arguments. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.RefValue.result_eq m' c, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
